-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024 : Shape := ⟨1, ![1024]⟩
abbrev S2048x1024 : Shape := ⟨2, ![2048, 1024]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S1024x2048 .f32) (main_arg1 : IVec S1024x2048 32) (main_arg2 : FVec F S1024 .f32) (main_arg3 : FVec F S2048x1024 .f32) (main_arg4 : FVec F S2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S1024x2048 : Shape := ⟨2, ![1024, 2048]⟩
abbrev S1024 : Shape := ⟨1, ![1024]⟩
abbrev S2048x1024 : Shape := ⟨2, ![2048, 1024]⟩
abbrev S2048 : Shape := ⟨1, ![2048]⟩
abbrev S_ : Shape := ⟨0, ![]⟩
abbrev S1024x1 : Shape := ⟨2, ![1024, 1]⟩
abbrev S1024x8193 : Shape := ⟨2, ![1024, 8193]⟩
abbrev S1024x2048x1 : Shape := ⟨3, ![1024, 2048, 1]⟩
abbrev S1024x2048x2 : Shape := ⟨3, ![1024, 2048, 2]⟩
abbrev S1024x8192 : Shape := ⟨2, ![1024, 8192]⟩
abbrev S8192 : Shape := ⟨1, ![8192]⟩
abbrev S1x8192 : Shape := ⟨2, ![1, 8192]⟩
abbrev S1024x8192x1 : Shape := ⟨3, ![1024, 8192, 1]⟩
abbrev S1 : Shape := ⟨1, ![1]⟩
abbrev S1x1x1 : Shape := ⟨3, ![1, 1, 1]⟩
abbrev S8192x2048 : Shape := ⟨2, ![8192, 2048]⟩
abbrev S1024x1024 : Shape := ⟨2, ![1024, 1024]⟩
abbrev S1x2048 : Shape := ⟨2, ![1, 2048]⟩

abbrev nBuf : Space → Nat
  | .hbm => 113
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S1024x2048, .i32⟩
  | .hbm, ⟨2, _⟩ => ⟨S1024, .f32⟩
  | .hbm, ⟨3, _⟩ => ⟨S2048x1024, .f32⟩
  | .hbm, ⟨4, _⟩ => ⟨S2048, .f32⟩
  | .hbm, ⟨5, _⟩ => ⟨S1024x2048, .i1⟩
  | .hbm, ⟨6, _⟩ => ⟨S1024x2048, .i1⟩
  | .hbm, ⟨7, _⟩ => ⟨S_, .i32⟩
  | .hbm, ⟨8, _⟩ => ⟨S1024x2048, .i32⟩
  | .hbm, ⟨9, _⟩ => ⟨S1024x2048, .i1⟩
  | .hbm, ⟨10, _⟩ => ⟨S1024x2048, .i1⟩
  | .hbm, ⟨11, _⟩ => ⟨S_, .i32⟩
  | .hbm, ⟨12, _⟩ => ⟨S1024x2048, .i32⟩
  | .hbm, ⟨13, _⟩ => ⟨S1024x2048, .i1⟩
  | .hbm, ⟨14, _⟩ => ⟨S1024x2048, .i1⟩
  | .hbm, ⟨15, _⟩ => ⟨S_, .i32⟩
  | .hbm, ⟨16, _⟩ => ⟨S_, .i32⟩
  | .hbm, ⟨17, _⟩ => ⟨S1024x2048, .i32⟩
  | .hbm, ⟨18, _⟩ => ⟨S1024x2048, .i32⟩
  | .hbm, ⟨19, _⟩ => ⟨S1024, .i32⟩
  | .hbm, ⟨20, _⟩ => ⟨S1024x1, .i32⟩
  | .hbm, ⟨21, _⟩ => ⟨S_, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x8193, .f32⟩
  | .hbm, ⟨27, _⟩ => ⟨S_, .i32⟩
  | .hbm, ⟨28, _⟩ => ⟨S1024x1, .i32⟩
  | .hbm, ⟨29, _⟩ => ⟨S1024x1, .i1⟩
  | .hbm, ⟨30, _⟩ => ⟨S_, .i32⟩
  | .hbm, ⟨31, _⟩ => ⟨S1024x1, .i32⟩
  | .hbm, ⟨32, _⟩ => ⟨S1024x1, .i32⟩
  | .hbm, ⟨33, _⟩ => ⟨S1024x1, .i32⟩
  | .hbm, ⟨34, _⟩ => ⟨S_, .i32⟩
  | .hbm, ⟨35, _⟩ => ⟨S1024x2048, .i32⟩
  | .hbm, ⟨36, _⟩ => ⟨S1024x2048, .i1⟩
  | .hbm, ⟨37, _⟩ => ⟨S_, .i32⟩
  | .hbm, ⟨38, _⟩ => ⟨S1024x2048, .i32⟩
  | .hbm, ⟨39, _⟩ => ⟨S1024x2048, .i32⟩
  | .hbm, ⟨40, _⟩ => ⟨S1024x2048, .i32⟩
  | .hbm, ⟨41, _⟩ => ⟨S1024x2048, .i32⟩
  | .hbm, ⟨42, _⟩ => ⟨S1024x2048x1, .i32⟩
  | .hbm, ⟨43, _⟩ => ⟨S1024x2048x1, .i32⟩
  | .hbm, ⟨44, _⟩ => ⟨S1024x2048x2, .i32⟩
  | .hbm, ⟨45, _⟩ => ⟨S1024x8193, .f32⟩
  | .hbm, ⟨46, _⟩ => ⟨S1024x8192, .f32⟩
  | .hbm, ⟨47, _⟩ => ⟨S_, .i1⟩
  | .hbm, ⟨48, _⟩ => ⟨S1024x8193, .i1⟩
  | .hbm, ⟨49, _⟩ => ⟨S_, .i32⟩
  | .hbm, ⟨50, _⟩ => ⟨S1024x1, .i32⟩
  | .hbm, ⟨51, _⟩ => ⟨S1024x1, .i1⟩
  | .hbm, ⟨52, _⟩ => ⟨S_, .i32⟩
  | .hbm, ⟨53, _⟩ => ⟨S1024x1, .i32⟩
  | .hbm, ⟨54, _⟩ => ⟨S1024x1, .i32⟩
  | .hbm, ⟨55, _⟩ => ⟨S1024x1, .i32⟩
  | .hbm, ⟨56, _⟩ => ⟨S_, .i32⟩
  | .hbm, ⟨57, _⟩ => ⟨S1024x2048, .i32⟩
  | .hbm, ⟨58, _⟩ => ⟨S1024x2048, .i1⟩
  | .hbm, ⟨59, _⟩ => ⟨S_, .i32⟩
  | .hbm, ⟨60, _⟩ => ⟨S1024x2048, .i32⟩
  | .hbm, ⟨61, _⟩ => ⟨S1024x2048, .i32⟩
  | .hbm, ⟨62, _⟩ => ⟨S1024x2048, .i32⟩
  | .hbm, ⟨63, _⟩ => ⟨S1024x2048, .i32⟩
  | .hbm, ⟨64, _⟩ => ⟨S1024x2048x1, .i32⟩
  | .hbm, ⟨65, _⟩ => ⟨S1024x2048x1, .i32⟩
  | .hbm, ⟨66, _⟩ => ⟨S1024x2048x2, .i32⟩
  | .hbm, ⟨67, _⟩ => ⟨S1024x8193, .i1⟩
  | .hbm, ⟨68, _⟩ => ⟨S1024x8192, .i1⟩
  | .hbm, ⟨69, _⟩ => ⟨S8192, .i32⟩
  | .hbm, ⟨70, _⟩ => ⟨S1x8192, .i32⟩
  | .hbm, ⟨71, _⟩ => ⟨S_, .i32⟩
  | .hbm, ⟨72, _⟩ => ⟨S_, .i32⟩
  | .hbm, ⟨73, _⟩ => ⟨S1024x8192, .i32⟩
  | .hbm, ⟨74, _⟩ => ⟨S1024x8192, .i32⟩
  | .hbm, ⟨75, _⟩ => ⟨S1024x8192, .i32⟩
  | .hbm, ⟨76, _⟩ => ⟨S_, .i32⟩
  | .hbm, ⟨77, _⟩ => ⟨S_, .i32⟩
  | .hbm, ⟨78, _⟩ => ⟨S1024x8192, .i32⟩
  | .hbm, ⟨79, _⟩ => ⟨S_, .i32⟩
  | .hbm, ⟨80, _⟩ => ⟨S1024x8192, .i32⟩
  | .hbm, ⟨81, _⟩ => ⟨S1024x8192, .i32⟩
  | .hbm, ⟨82, _⟩ => ⟨S_, .i32⟩
  | .hbm, ⟨83, _⟩ => ⟨S1024x8192, .i32⟩
  | .hbm, ⟨84, _⟩ => ⟨S1024x8192, .i1⟩
  | .hbm, ⟨85, _⟩ => ⟨S_, .i32⟩
  | .hbm, ⟨86, _⟩ => ⟨S1024x8192, .i32⟩
  | .hbm, ⟨87, _⟩ => ⟨S1024x8192, .i32⟩
  | .hbm, ⟨88, _⟩ => ⟨S1024x8192, .i32⟩
  | .hbm, ⟨89, _⟩ => ⟨S1024x8192x1, .i32⟩
  | .hbm, ⟨90, _⟩ => ⟨S1, .i32⟩
  | .hbm, ⟨91, _⟩ => ⟨S_, .i32⟩
  | .hbm, ⟨92, _⟩ => ⟨S1024x8192x1, .i32⟩
  | .hbm, ⟨93, _⟩ => ⟨S1024x8192x1, .i1⟩
  | .hbm, ⟨94, _⟩ => ⟨S1x1x1, .i32⟩
  | .hbm, ⟨95, _⟩ => ⟨S1024x8192x1, .i32⟩
  | .hbm, ⟨96, _⟩ => ⟨S1024x8192x1, .i1⟩
  | .hbm, ⟨97, _⟩ => ⟨S1024x8192x1, .i1⟩
  | .hbm, ⟨98, _⟩ => ⟨S_, .i1⟩
  | .hbm, ⟨99, _⟩ => ⟨S1024x8192, .i1⟩
  | .hbm, ⟨100, _⟩ => ⟨S1024x8192, .f32⟩
  | .hbm, ⟨101, _⟩ => ⟨S_, .f32⟩
  | .hbm, ⟨102, _⟩ => ⟨S1024x8192, .f32⟩
  | .hbm, ⟨103, _⟩ => ⟨S1024x8192, .f32⟩
  | .hbm, ⟨104, _⟩ => ⟨S_, .i32⟩
  | .hbm, ⟨105, _⟩ => ⟨S1024x8192, .i32⟩
  | .hbm, ⟨106, _⟩ => ⟨S1024x8192, .i1⟩
  | .hbm, ⟨107, _⟩ => ⟨S1024x1, .f32⟩
  | .hbm, ⟨108, _⟩ => ⟨S1024x8192, .f32⟩
  | .hbm, ⟨109, _⟩ => ⟨S1024x8192, .f32⟩
  | .hbm, ⟨110, _⟩ => ⟨S1024x8192, .bf16⟩
  | .hbm, ⟨111, _⟩ => ⟨S2048x1024, .bf16⟩
  | .hbm, ⟨112, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048, .f32⟩
  | .local _ .vmem, ⟨4, _⟩ => ⟨S1024x2048, .f32⟩
  | .local _ .vmem, ⟨5, _⟩ => ⟨S1024x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_10 : Ref sig .tc := ⟨.hbm, 56, rfl⟩
abbrev main_v35 : Ref sig .tc := ⟨.hbm, 57, rfl⟩
abbrev main_v36 : Ref sig .tc := ⟨.hbm, 58, rfl⟩
abbrev main_c_11 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v48 : Ref sig .tc := ⟨.hbm, 75, rfl⟩
abbrev main_call3_c : Ref sig .tc := ⟨.hbm, 76, rfl⟩
abbrev main_call3_v0 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_c_1 : Ref sig .tc := ⟨.hbm, 90, rfl⟩
abbrev main_call4_c_2 : Ref sig .tc := ⟨.hbm, 91, rfl⟩
abbrev main_call4_v6 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_3 : Ref sig .tc := ⟨.hbm, 98, rfl⟩
abbrev main_call4_v12 : Ref sig .tc := ⟨.hbm, 99, rfl⟩
abbrev main_call4_v13 : Ref sig .tc := ⟨.hbm, 100, rfl⟩
abbrev main_call4_cst : Ref sig .tc := ⟨.hbm, 101, rfl⟩
abbrev main_call4_v14 : Ref sig .tc := ⟨.hbm, 102, rfl⟩
abbrev main_v52 : Ref sig .tc := ⟨.hbm, 103, rfl⟩
abbrev main_c_14 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_call5_v0 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x2048 : S_.BroadcastsInDim S1024x2048 (![] : Fin 0 → Fin S1024x2048.rank)
  bcast_S1024_S1024x1_0 : S1024.BroadcastsInDim S1024x1 (![0] : Fin 1 → Fin S1024x1.rank)
  bcast_S_S1024x8193 : S_.BroadcastsInDim S1024x8193 (![] : Fin 0 → Fin S1024x8193.rank)
  bcast_S_S1024x1 : S_.BroadcastsInDim S1024x1 (![] : Fin 0 → Fin S1024x1.rank)
  bcast_S1024x1_S1024x2048_0_1 : S1024x1.BroadcastsInDim S1024x2048 (![0, 1] : Fin 2 → Fin S1024x2048.rank)
  bcast_S1024x2048_S1024x2048x1_0_1 : S1024x2048.BroadcastsInDim S1024x2048x1 (![0, 1] : Fin 2 → Fin S1024x2048x1.rank)
  concatenates_S1024x2048x1_S1024x2048x1_S1024x2048x2_d2 : Shape.Concatenates [S1024x2048x1, S1024x2048x1] S1024x2048x2 2
  slices_S1024x8193_S1024x8192_0_0 : S1024x8193.Slices ![0, 0] S1024x8192
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  bcast_S_S1024x8192 : S_.BroadcastsInDim S1024x8192 (![] : Fin 0 → Fin S1024x8192.rank)
  bcast_S_S_ : S_.BroadcastsInDim S_ (![] : Fin 0 → Fin S_.rank)
  reduceWindows_S1024x8192_S1024x8192_w1s1p0_0_w8192s1p8191_0 : S1024x8192.ReduceWindows (![1, 8192] : Fin 2 → Nat) ![1, 1] ![0, 8191] ![0, 0] S1024x8192
  h_S_ : 0 < S_.numel
  shapeCasts_S1024x8192_S1024x8192x1 : S1024x8192.ShapeCasts S1024x8192x1
  bcast_S_S1024x8192x1 : S_.BroadcastsInDim S1024x8192x1 (![] : Fin 0 → Fin S1024x8192x1.rank)
  bcast_S1_S1x1x1_2 : S1.BroadcastsInDim S1x1x1 (![2] : Fin 1 → Fin S1x1x1.rank)
  bcast_S1x1x1_S1024x8192x1_0_1_2 : S1x1x1.BroadcastsInDim S1024x8192x1 (![0, 1, 2] : Fin 3 → Fin S1024x8192x1.rank)
  reducesTo_S1024x8192x1_S1024x8192_d2 : S1024x8192x1.ReducesTo [2] S1024x8192
  bcast_S1024x1_S1024x8192_0_1 : S1024x1.BroadcastsInDim S1024x8192 (![0, 1] : Fin 2 → Fin S1024x8192.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  scatter_S1024x8193_S1024x2048x2_S1024x2048_n_01_01_2_wf : ScatterDims.WF S1024x8193 S1024x2048x2 S1024x2048 [] [0, 1] [0, 1] 2
  gather_S1024x8192_S1024x8192x1_S1024x8192_n_1_0_0_1_2_11_wf : GatherDims.WF S1024x8192 S1024x8192x1 S1024x8192 [] [1] [0] [1] [0] 2 ![1, 1]
  dot_S1024x1024_S2048x1024_S1024x2048_0_1_1_0_n_n_wf : DotDims.WF S1024x1024 S2048x1024 S1024x2048 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x8192.size a
  hwx0_0 : ∀ i : grid0.Coords, EltTy.bits .bf16 = 32 ∨ (Rect.block (s := S1024x8192) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x2048.size a
  hwx0_3 : ∀ i : grid0.Coords, EltTy.bits .f32 = 32 ∨ (Rect.block (s := S8192x2048) S1024x2048.size (cc0_transform_3 i) (hinb0_3 i)).WholeWords (EltTy.packing .f32)

variable [Facts₀]

def scatter_S1024x8193_S1024x2048x2_S1024x2048_n_01_01_2 : ScatterDims S1024x8193 S1024x2048x2 S1024x2048 where
  updateWindowDims := []
  insertedWindowDims := [0, 1]
  scatterDimsToOperandDims := [0, 1]
  indexVectorDim := 2
  wf := scatter_S1024x8193_S1024x2048x2_S1024x2048_n_01_01_2_wf
def gather_S1024x8192_S1024x8192x1_S1024x8192_n_1_0_0_1_2_11 : GatherDims S1024x8192 S1024x8192x1 S1024x8192 where
  offsetDims := []
  collapsedSliceDims := [1]
  operandBatchingDims := [0]
  startIndicesBatchingDims := [0]
  startIndexMap := [1]
  indexVectorDim := 2
  sliceSizes := ![1, 1]
  wf := gather_S1024x8192_S1024x8192x1_S1024x8192_n_1_0_0_1_2_11_wf
def dot_S1024x1024_S2048x1024_S1024x2048_0_1_1_0_n_n : DotDims S1024x1024 S2048x1024 S1024x2048 where
  lhsContracting := [0]
  rhsContracting := [1]
  lhsNonContracting := [1]
  rhsNonContracting := [0]
  lhsBatch := []
  rhsBatch := []
  wf := dot_S1024x1024_S2048x1024_S1024x2048_0_1_1_0_n_n_wf

abbrev win0_0 : Pipeline.Window sig grid0 :=
  Pipeline.Window.ofSpec (Memref.whole main_v57) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1024 : Shape := ⟨1, ![1024]⟩
abbrev S2048x1024 : Shape := ⟨2, ![2048, 1024]⟩
abbrev S2048 : Shape := ⟨1, ![2048]⟩
abbrev S_ : Shape := ⟨0, ![]⟩
abbrev S1024x1 : Shape := ⟨2, ![1024, 1]⟩
abbrev S1024x8193 : Shape := ⟨2, ![1024, 8193]⟩
abbrev S1024x2048x1 : Shape := ⟨3, ![1024, 2048, 1]⟩
abbrev S1024x2048x2 : Shape := ⟨3, ![1024, 2048, 2]⟩
abbrev S1024x8192 : Shape := ⟨2, ![1024, 8192]⟩
abbrev S8192 : Shape := ⟨1, ![8192]⟩
abbrev S1x8192 : Shape := ⟨2, ![1, 8192]⟩
abbrev S1024x8192x1 : Shape := ⟨3, ![1024, 8192, 1]⟩
abbrev S1 : Shape := ⟨1, ![1]⟩
abbrev S1x1x1 : Shape := ⟨3, ![1, 1, 1]⟩
abbrev S8192x2048 : Shape := ⟨2, ![8192, 2048]⟩
abbrev S1x2048 : Shape := ⟨2, ![1, 2048]⟩

abbrev nBuf : Space → Nat
  | .hbm => 114
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .i32⟩
  | .hbm, ⟨2, _⟩ => ⟨S1024, .f32⟩
  | .hbm, ⟨3, _⟩ => ⟨S2048x1024, .f32⟩
  | .hbm, ⟨4, _⟩ => ⟨S2048, .f32⟩
  | .hbm, ⟨5, _⟩ => ⟨S1024x2048, .i1⟩
  | .hbm, ⟨6, _⟩ => ⟨S1024x2048, .i1⟩
  | .hbm, ⟨7, _⟩ => ⟨S_, .i32⟩
  | .hbm, ⟨8, _⟩ => ⟨S1024x2048, .i32⟩
  | .hbm, ⟨9, _⟩ => ⟨S1024x2048, .i1⟩
  | .hbm, ⟨10, _⟩ => ⟨S1024x2048, .i1⟩
  | .hbm, ⟨11, _⟩ => ⟨S_, .i32⟩
  | .hbm, ⟨12, _⟩ => ⟨S1024x2048, .i32⟩
  | .hbm, ⟨13, _⟩ => ⟨S1024x2048, .i1⟩
  | .hbm, ⟨14, _⟩ => ⟨S1024x2048, .i1⟩
  | .hbm, ⟨15, _⟩ => ⟨S_, .i32⟩
  | .hbm, ⟨16, _⟩ => ⟨S_, .i32⟩
  | .hbm, ⟨17, _⟩ => ⟨S1024x2048, .i32⟩
  | .hbm, ⟨18, _⟩ => ⟨S1024x2048, .i32⟩
  | .hbm, ⟨19, _⟩ => ⟨S1024, .i32⟩
  | .hbm, ⟨20, _⟩ => ⟨S1024x1, .i32⟩
  | .hbm, ⟨21, _⟩ => ⟨S_, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x8193, .f32⟩
  | .hbm, ⟨27, _⟩ => ⟨S_, .i32⟩
  | .hbm, ⟨28, _⟩ => ⟨S1024x1, .i32⟩
  | .hbm, ⟨29, _⟩ => ⟨S1024x1, .i1⟩
  | .hbm, ⟨30, _⟩ => ⟨S_, .i32⟩
  | .hbm, ⟨31, _⟩ => ⟨S1024x1, .i32⟩
  | .hbm, ⟨32, _⟩ => ⟨S1024x1, .i32⟩
  | .hbm, ⟨33, _⟩ => ⟨S1024x1, .i32⟩
  | .hbm, ⟨34, _⟩ => ⟨S_, .i32⟩
  | .hbm, ⟨35, _⟩ => ⟨S1024x2048, .i32⟩
  | .hbm, ⟨36, _⟩ => ⟨S1024x2048, .i1⟩
  | .hbm, ⟨37, _⟩ => ⟨S_, .i32⟩
  | .hbm, ⟨38, _⟩ => ⟨S1024x2048, .i32⟩
  | .hbm, ⟨39, _⟩ => ⟨S1024x2048, .i32⟩
  | .hbm, ⟨40, _⟩ => ⟨S1024x2048, .i32⟩
  | .hbm, ⟨41, _⟩ => ⟨S1024x2048, .i32⟩
  | .hbm, ⟨42, _⟩ => ⟨S1024x2048x1, .i32⟩
  | .hbm, ⟨43, _⟩ => ⟨S1024x2048x1, .i32⟩
  | .hbm, ⟨44, _⟩ => ⟨S1024x2048x2, .i32⟩
  | .hbm, ⟨45, _⟩ => ⟨S1024x8193, .f32⟩
  | .hbm, ⟨46, _⟩ => ⟨S1024x8192, .f32⟩
  | .hbm, ⟨47, _⟩ => ⟨S_, .i1⟩
  | .hbm, ⟨48, _⟩ => ⟨S1024x8193, .i1⟩
  | .hbm, ⟨49, _⟩ => ⟨S_, .i32⟩
  | .hbm, ⟨50, _⟩ => ⟨S1024x1, .i32⟩
  | .hbm, ⟨51, _⟩ => ⟨S1024x1, .i1⟩
  | .hbm, ⟨52, _⟩ => ⟨S_, .i32⟩
  | .hbm, ⟨53, _⟩ => ⟨S1024x1, .i32⟩
  | .hbm, ⟨54, _⟩ => ⟨S1024x1, .i32⟩
  | .hbm, ⟨55, _⟩ => ⟨S1024x1, .i32⟩
  | .hbm, ⟨56, _⟩ => ⟨S_, .i32⟩
  | .hbm, ⟨57, _⟩ => ⟨S1024x2048, .i32⟩
  | .hbm, ⟨58, _⟩ => ⟨S1024x2048, .i1⟩
  | .hbm, ⟨59, _⟩ => ⟨S_, .i32⟩
  | .hbm, ⟨60, _⟩ => ⟨S1024x2048, .i32⟩
  | .hbm, ⟨61, _⟩ => ⟨S1024x2048, .i32⟩
  | .hbm, ⟨62, _⟩ => ⟨S1024x2048, .i32⟩
  | .hbm, ⟨63, _⟩ => ⟨S1024x2048, .i32⟩
  | .hbm, ⟨64, _⟩ => ⟨S1024x2048x1, .i32⟩
  | .hbm, ⟨65, _⟩ => ⟨S1024x2048x1, .i32⟩
  | .hbm, ⟨66, _⟩ => ⟨S1024x2048x2, .i32⟩
  | .hbm, ⟨67, _⟩ => ⟨S1024x8193, .i1⟩
  | .hbm, ⟨68, _⟩ => ⟨S1024x8192, .i1⟩
  | .hbm, ⟨69, _⟩ => ⟨S8192, .i32⟩
  | .hbm, ⟨70, _⟩ => ⟨S1x8192, .i32⟩
  | .hbm, ⟨71, _⟩ => ⟨S_, .i32⟩
  | .hbm, ⟨72, _⟩ => ⟨S_, .i32⟩
  | .hbm, ⟨73, _⟩ => ⟨S1024x8192, .i32⟩
  | .hbm, ⟨74, _⟩ => ⟨S1024x8192, .i32⟩
  | .hbm, ⟨75, _⟩ => ⟨S1024x8192, .i32⟩
  | .hbm, ⟨76, _⟩ => ⟨S_, .i32⟩
  | .hbm, ⟨77, _⟩ => ⟨S_, .i32⟩
  | .hbm, ⟨78, _⟩ => ⟨S1024x8192, .i32⟩
  | .hbm, ⟨79, _⟩ => ⟨S_, .i32⟩
  | .hbm, ⟨80, _⟩ => ⟨S1024x8192, .i32⟩
  | .hbm, ⟨81, _⟩ => ⟨S1024x8192, .i32⟩
  | .hbm, ⟨82, _⟩ => ⟨S_, .i32⟩
  | .hbm, ⟨83, _⟩ => ⟨S1024x8192, .i32⟩
  | .hbm, ⟨84, _⟩ => ⟨S1024x8192, .i1⟩
  | .hbm, ⟨85, _⟩ => ⟨S_, .i32⟩
  | .hbm, ⟨86, _⟩ => ⟨S1024x8192, .i32⟩
  | .hbm, ⟨87, _⟩ => ⟨S1024x8192, .i32⟩
  | .hbm, ⟨88, _⟩ => ⟨S1024x8192, .i32⟩
  | .hbm, ⟨89, _⟩ => ⟨S1024x8192x1, .i32⟩
  | .hbm, ⟨90, _⟩ => ⟨S1, .i32⟩
  | .hbm, ⟨91, _⟩ => ⟨S_, .i32⟩
  | .hbm, ⟨92, _⟩ => ⟨S1024x8192x1, .i32⟩
  | .hbm, ⟨93, _⟩ => ⟨S1024x8192x1, .i1⟩
  | .hbm, ⟨94, _⟩ => ⟨S1x1x1, .i32⟩
  | .hbm, ⟨95, _⟩ => ⟨S1024x8192x1, .i32⟩
  | .hbm, ⟨96, _⟩ => ⟨S1024x8192x1, .i1⟩
  | .hbm, ⟨97, _⟩ => ⟨S1024x8192x1, .i1⟩
  | .hbm, ⟨98, _⟩ => ⟨S_, .i1⟩
  | .hbm, ⟨99, _⟩ => ⟨S1024x8192, .i1⟩
  | .hbm, ⟨100, _⟩ => ⟨S1024x8192, .f32⟩
  | .hbm, ⟨101, _⟩ => ⟨S_, .f32⟩
  | .hbm, ⟨102, _⟩ => ⟨S1024x8192, .f32⟩
  | .hbm, ⟨103, _⟩ => ⟨S1024x8192, .f32⟩
  | .hbm, ⟨104, _⟩ => ⟨S_, .i32⟩
  | .hbm, ⟨105, _⟩ => ⟨S1024x8192, .i32⟩
  | .hbm, ⟨106, _⟩ => ⟨S1024x8192, .i1⟩
  | .hbm, ⟨107, _⟩ => ⟨S1024x1, .f32⟩
  | .hbm, ⟨108, _⟩ => ⟨S1024x8192, .f32⟩
  | .hbm, ⟨109, _⟩ => ⟨S1024x8192, .f32⟩
  | .hbm, ⟨110, _⟩ => ⟨S8192x2048, .f32⟩
  | .hbm, ⟨111, _⟩ => ⟨S1x2048, .f32⟩
  | .hbm, ⟨112, _⟩ => ⟨S8192x2048, .f32⟩
  | .hbm, ⟨113, _⟩ => ⟨S8192x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_10 : Ref sig .tc := ⟨.hbm, 56, rfl⟩
abbrev main_v35 : Ref sig .tc := ⟨.hbm, 57, rfl⟩
abbrev main_v36 : Ref sig .tc := ⟨.hbm, 58, rfl⟩
abbrev main_c_11 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v48 : Ref sig .tc := ⟨.hbm, 75, rfl⟩
abbrev main_call3_c : Ref sig .tc := ⟨.hbm, 76, rfl⟩
abbrev main_call3_v0 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_c_1 : Ref sig .tc := ⟨.hbm, 90, rfl⟩
abbrev main_call4_c_2 : Ref sig .tc := ⟨.hbm, 91, rfl⟩
abbrev main_call4_v6 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_3 : Ref sig .tc := ⟨.hbm, 98, rfl⟩
abbrev main_call4_v12 : Ref sig .tc := ⟨.hbm, 99, rfl⟩
abbrev main_call4_v13 : Ref sig .tc := ⟨.hbm, 100, rfl⟩
abbrev main_call4_cst : Ref sig .tc := ⟨.hbm, 101, rfl⟩
abbrev main_call4_v14 : Ref sig .tc := ⟨.hbm, 102, rfl⟩
abbrev main_v52 : Ref sig .tc := ⟨.hbm, 103, rfl⟩
abbrev main_c_14 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_call5_v0 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩

abbrev nD : Nat := 1
abbrev τ : Topo := Topo.v7x

variable {F : FTy → Type} [FloatOps F]

class Facts₀ : Prop where
  bcast_S_S1024x2048 : S_.BroadcastsInDim S1024x2048 (![] : Fin 0 → Fin S1024x2048.rank)
  bcast_S1024_S1024x1_0 : S1024.BroadcastsInDim S1024x1 (![0] : Fin 1 → Fin S1024x1.rank)
  bcast_S_S1024x8193 : S_.BroadcastsInDim S1024x8193 (![] : Fin 0 → Fin S1024x8193.rank)
  bcast_S_S1024x1 : S_.BroadcastsInDim S1024x1 (![] : Fin 0 → Fin S1024x1.rank)
  bcast_S1024x1_S1024x2048_0_1 : S1024x1.BroadcastsInDim S1024x2048 (![0, 1] : Fin 2 → Fin S1024x2048.rank)
  bcast_S1024x2048_S1024x2048x1_0_1 : S1024x2048.BroadcastsInDim S1024x2048x1 (![0, 1] : Fin 2 → Fin S1024x2048x1.rank)
  concatenates_S1024x2048x1_S1024x2048x1_S1024x2048x2_d2 : Shape.Concatenates [S1024x2048x1, S1024x2048x1] S1024x2048x2 2
  slices_S1024x8193_S1024x8192_0_0 : S1024x8193.Slices ![0, 0] S1024x8192
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  bcast_S_S1024x8192 : S_.BroadcastsInDim S1024x8192 (![] : Fin 0 → Fin S1024x8192.rank)
  bcast_S_S_ : S_.BroadcastsInDim S_ (![] : Fin 0 → Fin S_.rank)
  reduceWindows_S1024x8192_S1024x8192_w1s1p0_0_w8192s1p8191_0 : S1024x8192.ReduceWindows (![1, 8192] : Fin 2 → Nat) ![1, 1] ![0, 8191] ![0, 0] S1024x8192
  h_S_ : 0 < S_.numel
  shapeCasts_S1024x8192_S1024x8192x1 : S1024x8192.ShapeCasts S1024x8192x1
  bcast_S_S1024x8192x1 : S_.BroadcastsInDim S1024x8192x1 (![] : Fin 0 → Fin S1024x8192x1.rank)
  bcast_S1_S1x1x1_2 : S1.BroadcastsInDim S1x1x1 (![2] : Fin 1 → Fin S1x1x1.rank)
  bcast_S1x1x1_S1024x8192x1_0_1_2 : S1x1x1.BroadcastsInDim S1024x8192x1 (![0, 1, 2] : Fin 3 → Fin S1024x8192x1.rank)
  reducesTo_S1024x8192x1_S1024x8192_d2 : S1024x8192x1.ReducesTo [2] S1024x8192
  bcast_S1024x1_S1024x8192_0_1 : S1024x1.BroadcastsInDim S1024x8192 (![0, 1] : Fin 2 → Fin S1024x8192.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  scatter_S1024x8193_S1024x2048x2_S1024x2048_n_01_01_2_wf : ScatterDims.WF S1024x8193 S1024x2048x2 S1024x2048 [] [0, 1] [0, 1] 2
  gather_S1024x8192_S1024x8192x1_S1024x8192_n_1_0_0_1_2_11_wf : GatherDims.WF S1024x8192 S1024x8192x1 S1024x8192 [] [1] [0] [1] [0] 2 ![1, 1]
  dot_S1024x8192_S2048x1024_S8192x2048_0_1_1_0_n_n_wf : DotDims.WF S1024x8192 S2048x1024 S8192x2048 [0] [1] [1] [0] [] []

variable [Facts₀]

def scatter_S1024x8193_S1024x2048x2_S1024x2048_n_01_01_2 : ScatterDims S1024x8193 S1024x2048x2 S1024x2048 where
  updateWindowDims := []
  insertedWindowDims := [0, 1]
  scatterDimsToOperandDims := [0, 1]
  indexVectorDim := 2
  wf := scatter_S1024x8193_S1024x2048x2_S1024x2048_n_01_01_2_wf
def gather_S1024x8192_S1024x8192x1_S1024x8192_n_1_0_0_1_2_11 : GatherDims S1024x8192 S1024x8192x1 S1024x8192 where
  offsetDims := []
  collapsedSliceDims := [1]
  operandBatchingDims := [0]
  startIndicesBatchingDims := [0]
  startIndexMap := [1]
  indexVectorDim := 2
  sliceSizes := ![1, 1]
  wf := gather_S1024x8192_S1024x8192x1_S1024x8192_n_1_0_0_1_2_11_wf
def dot_S1024x8192_S2048x1024_S8192x2048_0_1_1_0_n_n : DotDims S1024x8192 S2048x1024 S8192x2048 where
  lhsContracting := [0]
  rhsContracting := [1]
  lhsNonContracting := [1]
  rhsNonContracting := [0]
  lhsBatch := []
  rhsBatch := []
  wf := dot_S1024x8192_S2048x1024_S8192x2048_0_1_1_0_n_n_wf

class Facts : Prop extends Facts₀ where

variable [Facts]
-- ==== Proof.Spec.lean ====
/-
  The function both programs compute, stated once over literal shapes.

  With R the forward-filled series laid out [feature m, time a], W the weights [h, m] and b the bias [h], the result
  at (a, h) is  Σ_m R[m, a] · W[h, m] + b[h]  on the extended reals. Only the sum over the shared feature axis and one
  addition occur in it: no law of the extended reals that needs finiteness (distributivity, cancelling) is used
  anywhere, so the precondition is never opened.
-/
import Idealize.ShloMosaic.PureOps.Ideal
import Idealize.ShloMosaic.Lib.ValueIdx

noncomputable section

namespace Cert.Spec

open Idealize.ShloMosaic Idealize.ShloMosaic.ValueIdx

/-- The result's entry at time `a` and output feature `h`. -/
def entry (R : FVec Ideal ⟨2, ![1024, 8192]⟩ .f32) (W : FVec Ideal ⟨2, ![2048, 1024]⟩ .f32) (b : FVec Ideal ⟨1, ![2048]⟩ .f32)
    (a : Fin 8192) (h : Fin 2048) : EReal :=
  (∑ k : Fin 1024, R (ix2 k a) * W (ix2 h k)) + b (ix1 h)

/-- The whole result array: `entry` at the index's two coordinates. -/
def affine (R : FVec Ideal ⟨2, ![1024, 8192]⟩ .f32) (W : FVec Ideal ⟨2, ![2048, 1024]⟩ .f32) (b : FVec Ideal ⟨1, ![2048]⟩ .f32) :
    FVec Ideal ⟨2, ![8192, 2048]⟩ .f32 :=
  fun i => entry R W b ⟨(i 0).val, (i 0).isLt⟩ ⟨(i 1).val, (i 1).isLt⟩

theorem affine_apply (R : FVec Ideal ⟨2, ![1024, 8192]⟩ .f32) (W : FVec Ideal ⟨2, ![2048, 1024]⟩ .f32) (b : FVec Ideal ⟨1, ![2048]⟩ .f32)
    (i : (⟨2, ![8192, 2048]⟩ : Shape).Idx) (a : Fin 8192) (h : Fin 2048) (ha : (i 0).val = a.val) (hh : (i 1).val = h.val) :
    affine R W b i = entry R W b a h := by
  have ea : (⟨(i 0).val, (i 0).isLt⟩ : Fin 8192) = a := Fin.ext ha
  have eh : (⟨(i 1).val, (i 1).isLt⟩ : Fin 2048) = h := Fin.ext hh
  unfold affine
  rw [ea, eh]

end Cert.Spec

end
-- ==== Proof.RefBridge.lean ====
/-
  The reference's result is the specification applied to its own forward-filled series.

  The reference ends with  dot_general(series, W) contracted over the feature axis (series' first axis, W's last)
  plus the bias broadcast along the rows. Read at (a, h) on the extended reals that is
  Σ_k series[k, a] · W[h, k] + b[h], which is `Spec.affine` at (a, h). The series itself — everything the program
  computes before the contraction — is carried as one unopened function of the first three arguments.
-/
import proofs.«117055_j59708635349351_1_alg».proof.Proof.RefRead
import proofs.«117055_j59708635349351_1_alg».proof.Proof.Spec

noncomputable section

namespace Cert.ReferenceIdeal.Bridge

open Cert.ReferenceIdeal Cert.ReferenceIdeal.ReadP Idealize.ShloMosaic Idealize.ShloMosaic.ValueIdx

/-- The last stage of the reference is `Spec.affine` of the series stage, the weights and the bias. -/
theorem result_eq (x0 : (⟨S1024x2048, .f32⟩ : BufTy).Contents (Elt Ideal)) (x1 : (⟨S1024x2048, .i32⟩ : BufTy).Contents (Elt Ideal))
    (x2 : (⟨S1024, .f32⟩ : BufTy).Contents (Elt Ideal)) (x3 : (⟨S2048x1024, .f32⟩ : BufTy).Contents (Elt Ideal))
    (x4 : (⟨S2048, .f32⟩ : BufTy).Contents (Elt Ideal)) :
    val_main_v60 (F := Ideal) x0 x1 x2 x3 x4 = Spec.affine (val_main_v56 (F := Ideal) x0 x1 x2) x3 x4 := by
  funext i
  obtain ⟨a, h, rfl⟩ : ∃ (a : Fin 8192) (h : Fin 2048), i = ix2 a h := ⟨i 0, i 1, eq_ix2 i⟩
  have el : ∀ k : Fin 1024, lidx_main_v57 (ix2 a h) k = ix2 k a := fun k =>
    funext fun ax => Fin.ext (by match ax with | ⟨0, _⟩ => rfl | ⟨1, _⟩ => rfl)
  have er : ∀ k : Fin 1024, ridx_main_v57 (ix2 a h) k = ix2 h k := fun k =>
    funext fun ax => Fin.ext (by match ax with | ⟨0, _⟩ => rfl | ⟨1, _⟩ => rfl)
  have eb : idx_main_v58 (idx_main_v59 (ix2 a h)) = ix1 h :=
    funext fun ax => Fin.ext (by match ax with | ⟨0, _⟩ => rfl)
  rw [val_main_v60_apply, val_main_v57_apply, val_main_v59_apply, val_main_v58_apply, eb,
    Spec.affine_apply _ _ _ _ a h rfl rfl]
  unfold Spec.entry
  simp only [el, er]
  rfl

end Cert.ReferenceIdeal.Bridge

end
-- ==== Proof.LibDotFirstLast.lean ====
/-
  A matrix product contracted over the left operand's FIRST axis and the right operand's LAST axis, read at an entry.

  For the dimension numbers `⟨[0], [1], [1], [0], [], []⟩` (a K×M operand times an N×K operand, no batch axis: the
  einsum "km,nk->mn"), the product has, at entry (p, q), the value Σ_k lhs (k, p) · rhs (q, k) on the extended reals —
  as a matrix product accumulated into the zero array and as a host `dot_general` alike: no rounding and no order of
  summation is left in either. The statements are generic in the three extents and in the operands' float formats (a
  change of format is the identity on the extended reals). A printed dimension record with these six lists is
  `dims K M N` (its well-formedness proof is a proposition): the `_of_eq` forms take that equation, which `rfl` proves.
-/
import Idealize.ShloMosaic.PureOps.Ideal.Laws
import Idealize.ShloMosaic.Lib.ValueIdx

namespace Idealize.ShloMosaic.DotFirstLast

open Idealize.ShloMosaic Idealize.ShloMosaic.ValueIdx

/-- `⟨[0], [1], [1], [0], [], []⟩`: `K×M` by `N×K`, the result `M×N`. -/
def dims (K M N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- The left operand's first coordinate is the contraction index. -/
theorem lhs_first (K M N : Nat) (i : (⟨2, ![M, N]⟩ : Shape).Idx) (c : (dims K M N).contr.Idx) :
    ((dims K M N).lhsIdx i c 0).val = (c ⟨0, Nat.one_pos⟩).val :=
  (dims K M N).lhsIdx_val_of_single rfl i c

/-- The left operand's second coordinate at output entry `i` is `i`'s row. -/
theorem lhs_second (K M N : Nat) (i : (⟨2, ![M, N]⟩ : Shape).Idx) (c : (dims K M N).contr.Idx) :
    ((dims K M N).lhsIdx i c 1).val = (i 0).val := by
  unfold DotDims.lhsIdx
  rw [dif_neg (show ¬(1 : Fin (⟨2, ![K, M]⟩ : Shape).rank) ∈ (dims K M N).lhsBatch by simp [dims]),
    dif_pos (show (1 : Fin (⟨2, ![K, M]⟩ : Shape).rank) ∈ (dims K M N).lhsNonContracting by simp [dims])]
  rfl

/-- The right operand's first coordinate at output entry `i` is `i`'s column. -/
theorem rhs_first (K M N : Nat) (i : (⟨2, ![M, N]⟩ : Shape).Idx) (c : (dims K M N).contr.Idx) :
    ((dims K M N).rhsIdx i c 0).val = (i 1).val := by
  unfold DotDims.rhsIdx
  rw [dif_neg (show ¬(0 : Fin (⟨2, ![N, K]⟩ : Shape).rank) ∈ (dims K M N).rhsBatch by simp [dims]),
    dif_pos (show (0 : Fin (⟨2, ![N, K]⟩ : Shape).rank) ∈ (dims K M N).rhsNonContracting by simp [dims])]
  rfl

/-- The right operand's second coordinate is the contraction index. -/
theorem rhs_second (K M N : Nat) (i : (⟨2, ![M, N]⟩ : Shape).Idx) (c : (dims K M N).contr.Idx) :
    ((dims K M N).rhsIdx i c 1).val = (c ⟨0, Nat.one_pos⟩).val :=
  (dims K M N).rhsIdx_val_of_single rfl i c

/-- The sum over the contraction shape's indices, at entry (p, q), is `Σ_k lhs (k, p) · rhs (q, k)`. -/
theorem contr_sum {φ₁ φ₂ : FTy} (K M N : Nat) (lhs : FVec Ideal ⟨2, ![K, M]⟩ φ₁) (rhs : FVec Ideal ⟨2, ![N, K]⟩ φ₂)
    (p : Fin M) (q : Fin N) :
    ∑ c : (dims K M N).contr.Idx, lhs ((dims K M N).lhsIdx (ix2 p q) c) * rhs ((dims K M N).rhsIdx (ix2 p q) c)
      = ∑ k : Fin K, lhs (ix2 k p) * rhs (ix2 q k) := by
  rw [← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k) = ix2 k p :=
    funext fun a => Fin.ext (by
      match a with
      | ⟨0, _⟩ => exact (lhs_first K M N _ _).trans hk
      | ⟨1, _⟩ => exact lhs_second K M N _ _)
  have er : (dims K M N).rhsIdx (ix2 p q) ((contrEquiv1 (dims K M N) K rfl rfl).symm k) = ix2 q k :=
    funext fun a => Fin.ext (by
      match a with
      | ⟨0, _⟩ => exact rhs_first K M N _ _
      | ⟨1, _⟩ => exact (rhs_second K M N _ _).trans hk)
  rw [el, er]

/-- A K×M by N×K product into the zero array, at entry (p, q), is `Σ_k lhs (k, p) · rhs (q, k)`. -/
theorem matmul_zero_apply {φ₁ φ₂ : FTy} (K M N : Nat) (lhs : FVec Ideal ⟨2, ![K, M]⟩ φ₁) (rhs : FVec Ideal ⟨2, ![N, K]⟩ φ₂)
    (p : Fin M) (q : Fin N) :
    FloatOps.matmul (dims K M N) none lhs rhs (constant ⟨2, ![M, N]⟩ .f32 0x00000000#32) (ix2 p q)
      = ∑ k : Fin K, lhs (ix2 k p) * rhs (ix2 q k) := by
  rw [Ideal.matmul_constant_zero_apply]
  exact contr_sum K M N lhs rhs p q

/-- The same for a record that is `dims K M N` under another name. -/
theorem matmul_zero_apply_of_eq {φ₁ φ₂ : FTy} (K M N : Nat) (D : DotDims ⟨2, ![K, M]⟩ ⟨2, ![N, K]⟩ ⟨2, ![M, N]⟩)
    (hD : D = dims K M N) (lhs : FVec Ideal ⟨2, ![K, M]⟩ φ₁) (rhs : FVec Ideal ⟨2, ![N, K]⟩ φ₂) (p : Fin M) (q : Fin N) :
    FloatOps.matmul D none lhs rhs (constant ⟨2, ![M, N]⟩ .f32 0x00000000#32) (ix2 p q)
      = ∑ k : Fin K, lhs (ix2 k p) * rhs (ix2 q k) := by
  subst hD
  exact matmul_zero_apply K M N lhs rhs p q

/-- The host's `dot_general` with these dimension numbers, at entry (p, q), is the same sum, whatever the schedule. -/
theorem dotGeneral_apply {φ₁ φ₂ : FTy} (K M N : Nat) (sched : HostSchedule) (lhs : FVec Ideal ⟨2, ![K, M]⟩ φ₁)
    (rhs : FVec Ideal ⟨2, ![N, K]⟩ φ₂) (p : Fin M) (q : Fin N) :
    FloatOps.dotGeneral (dims K M N) none sched lhs rhs (ix2 p q) = ∑ k : Fin K, lhs (ix2 k p) * rhs (ix2 q k) := by
  rw [Ideal.dotGeneral_apply]
  exact contr_sum K M N lhs rhs p q

/-- The same for a record that is `dims K M N` under another name. -/
theorem dotGeneral_apply_of_eq {φ₁ φ₂ : FTy} (K M N : Nat) (D : DotDims ⟨2, ![K, M]⟩ ⟨2, ![N, K]⟩ ⟨2, ![M, N]⟩)
    (hD : D = dims K M N) (sched : HostSchedule) (lhs : FVec Ideal ⟨2, ![K, M]⟩ φ₁) (rhs : FVec Ideal ⟨2, ![N, K]⟩ φ₂)
    (p : Fin M) (q : Fin N) :
    FloatOps.dotGeneral D none sched lhs rhs (ix2 p q) = ∑ k : Fin K, lhs (ix2 k p) * rhs (ix2 q k) := by
  subst hD
  exact dotGeneral_apply K M N sched lhs rhs p q

end Idealize.ShloMosaic.DotFirstLast
-- ==== Proof.KernelPay.lean ====
/-
  The kernel body's arithmetic at one entry of its output block.

  At a grid point the body holds a block r of the series [feature k, time p], the whole weight array w [h, k] and
  the bias, and stores  acc + bias  where acc is the product of r and w contracted over the feature axis into a
  zero array. On the extended reals that is, at (p, q):  Σ_k r[k, p] · w[q, k] + bias[q].
-/
import proofs.«117055_j59708635349351_1_alg».proof.Proof.Gen.KernelIdeal.Skeleton
import proofs.«117055_j59708635349351_1_alg».proof.Proof.LibDotFirstLast
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The stored value at entry (p, q) of the block: the contraction over the feature axis plus the bias entry. -/
theorem pay_apply (x0 : Vec Ideal S1024x1024 .bf16) (x1 : Vec Ideal S2048x1024 .bf16) (x2 : Vec Ideal S2048 .f32)
    (p : Fin 1024) (q : Fin 2048) :
    k0_pay1 (F := Ideal) x0 x1 x2 (ix2 p q) = (∑ k : Fin 1024, x0 (ix2 k p) * x1 (ix2 q k)) + x2 (ix1 q) := by
  unfold k0_pay1
  rw [addf_apply, shapeCast_self, shapeCast_self]
  simp only [matmul]
  rw [DotFirstLast.matmul_zero_apply_of_eq 1024 1024 2048 dot_S1024x1024_S2048x1024_S1024x2048_0_1_1_0_n_n rfl,
    broadcastTo_1b_ab_apply, shapeCast_a_1a_apply]

end Cert.KernelIdeal.Pay

end
-- ==== Proof.KernelArrays.lean ====
/-
  The kernel's result array as one function of the arrays its launch finds.

  The launch runs over 8 grid points. Point t is handed columns [1024·t, 1024·t + 1024) of the series array
  r [feature, time] (all 1024 feature rows), the whole weight array w [h, feature] and the whole bias, and writes back
  rows [1024·t, 1024·t + 1024) of the result [time, h]. By the body's arithmetic (`Pay.pay_apply`) what point t writes
  is therefore the block of  Σ_k r[k, a] · w[h, k] + bias[h]  over its own rows a; the 8 row blocks tile the result, so
  the array ends holding that function everywhere.
-/
import proofs.«117055_j59708635349351_1_alg».proof.Proof.Gen.KernelIdeal.Value
import proofs.«117055_j59708635349351_1_alg».proof.Proof.KernelPay
import proofs.«117055_j59708635349351_1_alg».proof.Proof.Spec

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The series array, the weights and the bias as the launch finds them, at their literal types. -/
abbrev series (c : Dev nD) : Vec Ideal S1024x8192 .bf16 := V m c main_v57
abbrev weights (c : Dev nD) : Vec Ideal S2048x1024 .bf16 := V m c main_v58
abbrev bias (c : Dev nD) : Vec Ideal S2048 .f32 := V m c main_arg4

/-- The printed index maps over the 8 grid points: the series window moves along the time axis with the result's row
    block; the weights and the bias stay; the result's column block index is 0. -/
theorem idx_facts : ∀ t : Fin cfg0.N,
    win0_0.index t (0 : Fin 2) = 0 ∧ win0_0.index t (1 : Fin 2) = win0_3.index t (0 : Fin 2)
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 7 :=
  (by decide +kernel : ∀ t : Fin grid0.N, _)

/-- Every row block of the result is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- The series block at point t, at (k, p), is the array at feature k and time 1024·(t's row block) + p. -/
theorem read_series (c : Dev nD) (t : Fin cfg0.N) (k p : Fin 1024) (a : Fin 8192)
    (ha : a.val = win0_3.index t (0 : Fin 2) * 1024 + p.val) :
    iblk m c 0 t (ix2 k p) = series m c (ix2 k a) := by
  obtain ⟨e00, e01, -⟩ := idx_facts t
  show V m c main_v57 (((cfg0.win 0).blk t).view.emb (ix2 k p)) = V m c main_v57 (ix2 k a)
  refine congrArg (V m c main_v57) (funext fun ax => Fin.ext ?_)
  match ax with
  | ⟨0, _⟩ => show win0_0.index t (0 : Fin 2) * 1024 + 1 * k.val = k.val; omega
  | ⟨1, _⟩ => show win0_0.index t (1 : Fin 2) * 1024 + 1 * p.val = a.val; omega

/-- The weights block is the whole array at every point. -/
theorem read_weights (c : Dev nD) (t : Fin cfg0.N) (q : Fin 2048) (k : Fin 1024) :
    iblk m c 1 t (ix2 q k) = weights m c (ix2 q k) := by
  obtain ⟨-, -, e10, e11, -⟩ := idx_facts t
  show V m c main_v58 (((cfg0.win 1).blk t).view.emb (ix2 q k)) = V m c main_v58 (ix2 q k)
  refine congrArg (V m c main_v58) (funext fun ax => Fin.ext ?_)
  match ax with
  | ⟨0, _⟩ => show win0_1.index t (0 : Fin 2) * 2048 + 1 * q.val = q.val; omega
  | ⟨1, _⟩ => show win0_1.index t (1 : Fin 2) * 1024 + 1 * k.val = k.val; omega

/-- The bias block is the whole array at every point. -/
theorem read_bias (c : Dev nD) (t : Fin cfg0.N) (q : Fin 2048) :
    iblk m c 2 t (ix1 q) = bias m c (ix1 q) := by
  obtain ⟨-, -, -, -, e20, -⟩ := idx_facts t
  show V m c main_arg4 (((cfg0.win 2).blk t).view.emb (ix1 q)) = V m c main_arg4 (ix1 q)
  refine congrArg (V m c main_arg4) (funext fun ax => Fin.ext ?_)
  match ax with
  | ⟨0, _⟩ => show win0_2.index t (0 : Fin 1) * 2048 + 1 * q.val = q.val; omega

/-- WHAT POINT t WRITES BACK is its block of `Spec.affine` of the three arrays. -/
theorem flushed_eq (c : Dev nD) (t : Fin cfg0.N) :
    (dats m 0 c).flushed 3 t
      = ((cfg0.win 3).blk t).view.read (Elt Ideal) (Spec.affine (series m c) (weights m c) (bias m c)) := by
  show (cfg0.win 3).cut (grid0.coords t) ((dats m 0 c).after 3 t) = _
  rw [after0_3]
  unfold out0_3
  rw [View.canon_unit_zero hz2]
  simp only [View.ld_unit_zero (S := S1024x1024) hz2, View.ld_unit_zero (S := S2048x1024) hz2, View.ld_unit_zero (S := S2048) hz1]
  obtain ⟨-, -, -, -, -, e31, e30⟩ := idx_facts t
  funext j
  obtain ⟨p, q, rfl⟩ : ∃ (p : Fin 1024) (q : Fin 2048), j = ix2 p q := ⟨j 0, j 1, eq_ix2 j⟩
  show k0_pay1 (iblk m c 0 t) (iblk m c 1 t) (iblk m c 2 t) (ix2 p q)
    = Spec.affine (series m c) (weights m c) (bias m c) (((cfg0.win 3).blk t).view.emb (ix2 p q))
  refine (Pay.pay_apply (iblk m c 0 t) (iblk m c 1 t) (iblk m c 2 t) p q).trans ?_
  have hlt : win0_3.index t (0 : Fin 2) * 1024 + p.val < 8192 := by have := p.isLt; omega
  rw [Spec.affine_apply (series m c) (weights m c) (bias m c) _ ⟨win0_3.index t (0 : Fin 2) * 1024 + p.val, hlt⟩ q
    (by show win0_3.index t (0 : Fin 2) * 1024 + 1 * p.val = win0_3.index t (0 : Fin 2) * 1024 + p.val; omega)
    (by show win0_3.index t (1 : Fin 2) * 2048 + 1 * q.val = q.val; omega)]
  unfold Spec.entry
  rw [read_bias m c t q]
  refine congrArg (· + bias m c (ix1 q)) (Finset.sum_congr rfl fun k _ => ?_)
  rw [read_series m c t k p ⟨win0_3.index t (0 : Fin 2) * 1024 + p.val, hlt⟩ rfl, read_weights m c t q k]

/-- An index of the result is in point t's block iff each coordinate is in the block's range on its axis. -/
theorem mem_blk (t : Fin cfg0.N) (i : S8192x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v59).slice (win0_3.rect t)).set ↔ _
  rw [View.set_slice_whole, Rect.mem_set_unit]
  exact Iff.rfl

/-- The 8 row blocks tile the result: row r lies in the block of the point whose row block index is r / 1024. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- THE RESULT ARRAY after the run. -/
theorem final (c : Dev nD) :
    (dats m 0 c).arrAt 3 cfg0.N = Spec.affine (series m c) (weights m c) (bias m c) :=
  (dats m 0 c).arrAt_eq_of_cover 3 (Spec.affine (series m c) (weights m c) (bias m c)) (fun t _ => flushed_eq m c t) cover

/-- The kernel's run with the result named: `Spec.affine` of the arrays the launch finds, the arguments unchanged. -/
theorem run : θ_run defs (onTc (τ := τ) (main (F := Ideal))) ⟨m, fun _ => 0, ρ⟩ fun r => ∀ c : Dev nD,
      r.2.mem ((c : Thread nD τ).loc main_v59) = Spec.affine (series m c) (weights m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Arrays

end
-- ==== Proof.KernelSeries.lean ====
/-
  The two arrays the launch finds staged for it, as functions of the arguments.

  Before the launch the program runs the reference's own host operations on the first three arguments — the validity
  mask, the two scatters onto the time grid, the running maximum of the last valid position, the gather and the fill
  with the global means — and then only changes the float format of that series and of the weights. So the series
  array the launch finds is the reference's series stage with its format changed, and the weights array is the fourth
  argument with its format changed. The host operations are never opened: both sides are the same composition of the
  same operations, and the equation is closed by reading the kernel program's operation list into that composition
  and comparing.
-/
import proofs.«117055_j59708635349351_1_alg».proof.Proof.Gen.KernelIdeal.Frame
import proofs.«117055_j59708635349351_1_alg».proof.Proof.RefRead
import Idealize.ShloMosaic.Lib.StableHlo.Run

noncomputable section

namespace Cert.KernelIdeal.Series

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The program's two-piece join of index columns as a function of its two pieces, so that one simplification pass
    reads the pieces' contents as well. -/
def cat2 (a b : (⟨S1024x2048x1, .i32⟩ : BufTy).Contents (Elt F)) : (⟨S1024x2048x2, .i32⟩ : BufTy).Contents (Elt F) :=
  concatenate S1024x2048x2 2 [⟨S1024x2048x1, a⟩, ⟨S1024x2048x1, b⟩] concatenates_S1024x2048x1_S1024x2048x1_S1024x2048x2_d2
theorem cat2_fold (a b : (⟨S1024x2048x1, .i32⟩ : BufTy).Contents (Elt F)) :
    concatenate S1024x2048x2 2 [⟨S1024x2048x1, a⟩, ⟨S1024x2048x1, b⟩] concatenates_S1024x2048x1_S1024x2048x1_S1024x2048x2_d2 = cat2 a b := rfl

set_option maxRecDepth 8192 in
set_option maxHeartbeats 40000000 in
/-- The series array at the launch is the reference's series stage of the first three arguments, its format changed. -/
theorem series_eq (c : Dev nD) :
    V m c main_v57 = truncf .bf16 (Cert.ReferenceIdeal.ReadP.val_main_v56 (F := F)
      (m ((c : Thread nD τ).loc main_arg0)) (m ((c : Thread nD τ).loc main_arg1)) (m ((c : Thread nD τ).loc main_arg2)))
      (by decide) := by
  dsimp only [V]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  simp (disch := decide) only [after_cons, after_nil,
          nullary_result', unary_result', binary_result', ternary_result', quaternary_result', reshape_result', nary4_result', nary_result',
          unaryIndexed_result', binaryIndexed_result',
          nullary_result_ne', unary_result_ne', binary_result_ne', ternary_result_ne', quaternary_result_ne', reshape_result_ne',
          nary_result_ne', unaryIndexed_result_ne', binaryIndexed_result_ne', cat2_fold, TRef.ofBuf, TRef.toBuf, cast_eq]
  rfl

set_option maxRecDepth 8192 in
set_option maxHeartbeats 40000000 in
/-- The weights array at the launch is the fourth argument, its format changed. -/
theorem weights_eq (c : Dev nD) :
    V m c main_v58 = truncf .bf16 (m ((c : Thread nD τ).loc main_arg3)) (by decide) := by
  dsimp only [V]
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  simp (disch := decide) only [after_cons, after_nil,
          nullary_result', unary_result', binary_result', ternary_result', quaternary_result', reshape_result', nary4_result', nary_result',
          unaryIndexed_result', binaryIndexed_result',
          nullary_result_ne', unary_result_ne', binary_result_ne', ternary_result_ne', quaternary_result_ne', reshape_result_ne',
          nary_result_ne', unaryIndexed_result_ne', binaryIndexed_result_ne', cat2_fold, TRef.ofBuf, TRef.toBuf, cast_eq]

end Cert.KernelIdeal.Series

end
-- ==== Proof.lean ====
/-
  The certificate's five claims.

  Both programs first build, from the observations, their time indices and the global means, the same forward-filled
  series R [feature m, time a] by the same host operations; then the reference contracts R with the weights W [h, m]
  over the feature axis and adds the bias, while the kernel changes R's and W's float format (the identity on the
  extended reals), and a launch over 8 blocks of 1024 time steps computes the same contraction block by block and adds
  the bias. So both results are  Σ_m R[m, a] · W[h, m] + b[h]  at every (a, h): the same sum over the same index, one
  addition, and no law of the extended reals that would need finite inputs.

  The frames of the two kernel programs are the generated frame certificates; the reference's frame is its run with
  the result dropped; the idealization rewrote nothing, so it is preserved trivially.
-/
import proofs.«117055_j59708635349351_1_alg».proof.Defs
import proofs.«117055_j59708635349351_1_alg».proof.Proof.Gen.Kernel
import proofs.«117055_j59708635349351_1_alg».proof.Proof.Gen.Kernel.Skeleton
import proofs.«117055_j59708635349351_1_alg».proof.Proof.Gen.Kernel.Launch
import proofs.«117055_j59708635349351_1_alg».proof.Proof.Gen.Kernel.Points
import proofs.«117055_j59708635349351_1_alg».proof.Proof.Gen.Kernel.Frame
import proofs.«117055_j59708635349351_1_alg».proof.Proof.Gen.KernelIdeal
import proofs.«117055_j59708635349351_1_alg».proof.Proof.Gen.KernelIdeal.Skeleton
import proofs.«117055_j59708635349351_1_alg».proof.Proof.Gen.KernelIdeal.Launch
import proofs.«117055_j59708635349351_1_alg».proof.Proof.Gen.KernelIdeal.Points
import proofs.«117055_j59708635349351_1_alg».proof.Proof.Gen.KernelIdeal.Frame
import proofs.«117055_j59708635349351_1_alg».proof.Proof.Gen.ReferenceIdeal
import proofs.«117055_j59708635349351_1_alg».proof.Proof.Gen.Pre_finite_inputs
import proofs.«117055_j59708635349351_1_alg».proof.Proof.Gen.KernelIdeal.Value
import proofs.«117055_j59708635349351_1_alg».proof.Proof.RefRun
import proofs.«117055_j59708635349351_1_alg».proof.Proof.RefRead
import proofs.«117055_j59708635349351_1_alg».proof.Proof.RefBridge
import proofs.«117055_j59708635349351_1_alg».proof.Proof.KernelArrays
import proofs.«117055_j59708635349351_1_alg».proof.Proof.KernelSeries
import Idealize.ShloMosaic.Adequacy
import Idealize.ShloMosaic.Init

noncomputable section

namespace Cert.Proof

open Idealize.ShloMosaic Idealize.ShloMosaic.TcCoe Idealize.SL.Sem

/-- On the extended reals a change of float format is the identity. -/
theorem truncf_bf16_id {s : Shape} (x : FVec Ideal s .f32) (h : FTy.bits .bf16 < FTy.bits .f32) :
    (truncf .bf16 x h : FVec Ideal s .bf16) = x := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at `Spec.affine` of the reference's series stage, the weights and the bias of arguments that agree. -/
theorem algebraic : Cert.algebraic_KernelIdeal_ReferenceIdeal := by
  intro m ρ m' ρ' _ hagree
  refine ⟨fun c => Cert.Spec.affine
    (Cert.ReferenceIdeal.ReadP.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Arrays.run m ρ)
    have e1 := (Cert.KernelIdeal.Series.series_eq m c).trans (truncf_bf16_id _ _)
    have e2 := (Cert.KernelIdeal.Series.weights_eq m c).trans (truncf_bf16_id _ _)
    have e3 := Cert.KernelIdeal.Gen.V_main_arg4 m c
    show Cert.Spec.affine (Cert.KernelIdeal.Gen.V m c Cert.KernelIdeal.main_v57) (Cert.KernelIdeal.Gen.V m c Cert.KernelIdeal.main_v58)
      (Cert.KernelIdeal.Gen.V m c Cert.KernelIdeal.main_arg4) = _
    rw [e1, e2, e3]
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v60_eq, Cert.ReferenceIdeal.Bridge.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
